-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80x1024 : Shape := ⟨2, ![80, 1024]⟩
abbrev S2048x80x1024 : Shape := ⟨3, ![2048, 80, 1024]⟩
abbrev S2048x80 : Shape := ⟨2, ![2048, 80]⟩
abbrev S_ : Shape := ⟨0, ![]⟩

class Facts : Prop where
  bcast_S_S80x1024 : S_.BroadcastsInDim S80x1024 (![] : Fin 0 → Fin S80x1024.rank)
  reducesTo_S80x1024_S_d0_1 : S80x1024.ReducesTo [0, 1] S_
  h_S_ : 0 < S_.numel
  bcast_S_S2048x80x1024 : S_.BroadcastsInDim S2048x80x1024 (![] : Fin 0 → Fin S2048x80x1024.rank)
  reducesTo_S2048x80x1024_S_d0_1_2 : S2048x80x1024.ReducesTo [0, 1, 2] S_

variable [Facts]

def fn {F : FTy → Type} [FloatOps F] (main_arg0 : FVec F S80x1024 .f32) (main_arg1 : FVec F S2048x80x1024 .f32) (main_arg2 : IVec S2048x80 32) : IVec S_ 1 :=
  let main_v0 : FVec F S80x1024 .f32 := Host.absf main_arg0
  let main_cst : FVec F S_ .f32 := constant S_ .f32 0x7F800000#32
  let main_v1 : FVec F S80x1024 .f32 := broadcastInDim S80x1024 ![] bcast_S_S80x1024 main_cst
  let main_v2 : IVec S80x1024 1 := cmpf .olt main_v0 main_v1
  let main_c : IVec S_ 1 := constantI S_ 1 1#1
  let main_v3 : IVec S_ 1 := (fun x v => Host.reduce IntOp.andi x v reducesTo_S80x1024_S_d0_1 h_S_) main_v2 main_c
  let main_v4 : FVec F S2048x80x1024 .f32 := Host.absf main_arg1
  let main_cst_0 : FVec F S_ .f32 := constant S_ .f32 0x7F800000#32
  let main_v5 : FVec F S2048x80x1024 .f32 := broadcastInDim S2048x80x1024 ![] bcast_S_S2048x80x1024 main_cst_0
  let main_v6 : IVec S2048x80x1024 1 := cmpf .olt main_v4 main_v5
  let main_c_1 : IVec S_ 1 := constantI S_ 1 1#1
  let main_v7 : IVec S_ 1 := (fun x v => Host.reduce IntOp.andi x v reducesTo_S2048x80x1024_S_d0_1_2 h_S_) main_v6 main_c_1
  let main_v8 : IVec S_ 1 := andi main_v3 main_v7
  main_v8
-- ==== Kernel.lean ====
abbrev S80x1024 : Shape := ⟨2, ![80, 1024]⟩
abbrev S2048x80x1024 : Shape := ⟨3, ![2048, 80, 1024]⟩
abbrev S2048x80 : Shape := ⟨2, ![2048, 80]⟩
abbrev S2x8x128 : Shape := ⟨3, ![2, 8, 128]⟩
abbrev S16x80x1024 : Shape := ⟨3, ![16, 80, 1024]⟩
abbrev S16x80 : Shape := ⟨2, ![16, 80]⟩
abbrev S1x8x128 : Shape := ⟨3, ![1, 8, 128]⟩
abbrev S1x80x1024 : Shape := ⟨3, ![1, 80, 1024]⟩
abbrev S16 : Shape := ⟨1, ![16]⟩
abbrev S16x1 : Shape := ⟨2, ![16, 1]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 20
  | .vmem => 9
  | .smem => 0
  | _ => 0

abbrev bufTy : (tb : Table) → Fin (tcTables nBuf tb) → BufTy
  | .hbm, ⟨0, _⟩ => ⟨S80x1024, .f32⟩
  | .hbm, ⟨1, _⟩ => ⟨S2048x80x1024, .f32⟩
  | .hbm, ⟨2, _⟩ => ⟨S2048x80, .i32⟩
  | .hbm, ⟨3, _⟩ => ⟨S2x8x128, .f32⟩
  | .hbm, ⟨4, _⟩ => ⟨S2x8x128, .f32⟩
  | .hbm, ⟨5, _⟩ => ⟨S2x1x1, .f32⟩
  | .hbm, ⟨6, _⟩ => ⟨S2, .f32⟩
  | .hbm, ⟨7, _⟩ => ⟨S_, .f32⟩
  | .hbm, ⟨8, _⟩ => ⟨S_, .f32⟩
  | .hbm, ⟨9, _⟩ => ⟨S2x1x1, .f32⟩
  | .hbm, ⟨10, _⟩ => ⟨S2, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S80x1024, .f32⟩
  | .local _ .vmem, ⟨1, _⟩ => ⟨S16x80x1024, .f32⟩
  | .local _ .vmem, ⟨2, _⟩ => ⟨S16x80x1024, .f32⟩
  | .local _ .vmem, ⟨3, _⟩ => ⟨S16x80, .i32⟩
  | .local _ .vmem, ⟨4, _⟩ => ⟨S16x80, .i32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | _, _ => ⟨S80x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S16x80x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x80 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S16x80x1024_S16x80x1024_0_0_0 : ∀ a, (![0, 0, 0] : Fin 3 → Nat) a + S16x80x1024.size a ≤ S16x80x1024.size a
  h_S16x80x1024 : 0 < S16x80x1024.numel
  inb_S80x1024_S80x1024_0_0 : ∀ a, (![0, 0] : Fin 2 → Nat) a + S80x1024.size a ≤ S80x1024.size a
  h_S80x1024 : 0 < S80x1024.numel
  shapeCasts_S80x1024_S1x80x1024 : S80x1024.ShapeCasts S1x80x1024
  broadcasts_S1x80x1024_S16x80x1024 : S1x80x1024.Broadcasts S16x80x1024
  reduces_S16x80x1024_S16x80 : S16x80x1024.Reduces [2] S16x80
  inb_S16x80_S16x80_0_0 : ∀ a, (![0, 0] : Fin 2 → Nat) a + S16x80.size a ≤ S16x80.size a
  h_S16x80 : 0 < S16x80.numel
  natLt_1_32 : 1 < 32
  reduces_S16x80_S16 : S16x80.Reduces [1] S16
  shapeCasts_S16_S16x1 : S16.ShapeCasts S16x1
  reduces_S16x1_S1 : S16x1.Reduces [0] S1
  shapeCasts_S1_S1x1 : S1.ShapeCasts S1x1
  shapeCasts_S1x8x128_S1x8x128 : S1x8x128.ShapeCasts S1x8x128
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S80x1024.size a ≤ S80x1024.size a
  hwx0_0 : ∀ i : grid0.Coords, EltTy.bits .f32 = 32 ∨ (Rect.block (s := S80x1024) S80x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x80x1024.size a ≤ S2048x80x1024.size a
  hwx0_1 : ∀ i : grid0.Coords, EltTy.bits .f32 = 32 ∨ (Rect.block (s := S2048x80x1024) S16x80x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x80.size a ≤ S2048x80.size a
  hwx0_2 : ∀ i : grid0.Coords, EltTy.bits .i32 = 32 ∨ (Rect.block (s := S2048x80) S16x80.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_arg0) S80x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x80x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x80.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S80x1024 : Shape := ⟨2, ![80, 1024]⟩
abbrev S2048x80x1024 : Shape := ⟨3, ![2048, 80, 1024]⟩
abbrev S2048x80 : Shape := ⟨2, ![2048, 80]⟩
abbrev S_ : Shape := ⟨0, ![]⟩
abbrev S1x80x1024 : Shape := ⟨3, ![1, 80, 1024]⟩

abbrev nBuf : Space → Nat
  | .hbm => 25
  | .vmem => 0
  | .smem => 0
  | _ => 0

abbrev bufTy : (tb : Table) → Fin (tcTables nBuf tb) → BufTy
  | .hbm, ⟨0, _⟩ => ⟨S80x1024, .f32⟩
  | .hbm, ⟨1, _⟩ => ⟨S2048x80x1024, .f32⟩
  | .hbm, ⟨2, _⟩ => ⟨S2048x80, .i32⟩
  | .hbm, ⟨3, _⟩ => ⟨S_, .i32⟩
  | .hbm, ⟨4, _⟩ => ⟨S2048x80, .i32⟩
  | .hbm, ⟨5, _⟩ => ⟨S2048x80, .i1⟩
  | .hbm, ⟨6, _⟩ => ⟨S2048x80, .f32⟩
  | .hbm, ⟨7, _⟩ => ⟨S1x80x1024, .f32⟩
  | .hbm, ⟨8, _⟩ => ⟨S2048x80x1024, .f32⟩
  | .hbm, ⟨9, _⟩ => ⟨S2048x80x1024, .f32⟩
  | .hbm, ⟨10, _⟩ => ⟨S2048x80x1024, .f32⟩
  | .hbm, ⟨11, _⟩ => ⟨S_, .f32⟩
  | .hbm, ⟨12, _⟩ => ⟨S2048x80, .f32⟩
  | .hbm, ⟨13, _⟩ => ⟨S2048x80, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S2048x80 : S_.BroadcastsInDim S2048x80 (![] : Fin 0 → Fin S2048x80.rank)
  bcast_S80x1024_S1x80x1024_1_2 : S80x1024.BroadcastsInDim S1x80x1024 (![1, 2] : Fin 2 → Fin S1x80x1024.rank)
  bcast_S1x80x1024_S2048x80x1024_0_1_2 : S1x80x1024.BroadcastsInDim S2048x80x1024 (![0, 1, 2] : Fin 3 → Fin S2048x80x1024.rank)
  reducesTo_S2048x80x1024_S2048x80_d2 : S2048x80x1024.ReducesTo [2] S2048x80
  h_S_ : 0 < S_.numel
  reducesTo_S2048x80_S_d0_1 : S2048x80.ReducesTo [0, 1] S_

variable [Facts₀]

class Facts : Prop extends Facts₀ where

variable [Facts]
-- ==== Proof.Spec.lean ====
/-
  The mathematics both programs compute, stated once over plain index types.

  For prototypes P[c, d], features X[B, c, d] and integer labels L[B, c] the loss is
      total / max(count, 1)  if count > 0, else 0,
  with total = Σ_B Σ_c dist2(B, c) · ind(L[B, c]),  count = Σ_B Σ_c ind(L[B, c]),
  dist2(B, c) = Σ_d (X[B, c, d] − P[c, d])² and ind(w) = 1 if w = 1 else 0.

  The kernel walks the 2048 samples in 128 tiles of 16, keeping one running sum per half of the batch
  (tiles 0..63 and 64..127); the reference sums everything at once. Only commutativity and associativity
  of + on the extended reals relate the two, so sums over consecutive ranges of samples are all that is
  needed: `seg f lo hi` is the sum of a per-sample quantity f over the samples lo ≤ B < hi.
-/
import Idealize.ShloMosaic.PureOps.Ideal
import Idealize.ShloMosaic.PureOps.Ideal.Laws
import Idealize.ShloMosaic.Lib.ValueIdx

noncomputable section

open scoped BigOperators

namespace Cert.ProtoLoss

open Idealize.ShloMosaic Idealize.ShloMosaic.ValueIdx

/-- The indicator of the label 1, as an extended real: 1 where the word is 1, else 0. -/
def ind (w : BitVec 32) : EReal := (((IntOp.cmpi .eq w 1#32).toNat : ℝ) : EReal)

/-- Squared distance of sample B's class-c feature row to the class-c prototype. -/
def dist2 (P : (⟨2, ![80, 1024]⟩ : Shape).Idx → EReal) (X : (⟨3, ![2048, 80, 1024]⟩ : Shape).Idx → EReal)
    (B : Fin 2048) (c : Fin 80) : EReal :=
  ∑ d : Fin 1024, (X (ix3 B c d) - P (ix2 c d)) * (X (ix3 B c d) - P (ix2 c d))

/-- Sample B's share of the total: its masked squared distances summed over the classes. -/
def rowTot (P : (⟨2, ![80, 1024]⟩ : Shape).Idx → EReal) (X : (⟨3, ![2048, 80, 1024]⟩ : Shape).Idx → EReal)
    (L : (⟨2, ![2048, 80]⟩ : Shape).Idx → BitVec 32) (B : Fin 2048) : EReal :=
  ∑ c : Fin 80, dist2 P X B c * ind (L (ix2 B c))

/-- Sample B's share of the count: how many of its labels are 1. -/
def rowCnt (L : (⟨2, ![2048, 80]⟩ : Shape).Idx → BitVec 32) (B : Fin 2048) : EReal :=
  ∑ c : Fin 80, ind (L (ix2 B c))

/-- A per-sample quantity read at any natural number: 0 past the batch. -/
def ext (f : Fin 2048 → EReal) (B : ℕ) : EReal := if h : B < 2048 then f ⟨B, h⟩ else 0

/-- The per-sample quantity summed over the samples lo ≤ B < hi. -/
def seg (f : Fin 2048 → EReal) (lo hi : ℕ) : EReal := ∑ B ∈ Finset.Ico lo hi, ext f B

/-- Tile n (samples 16n .. 16n+15) appended to a range that ends where the tile starts. -/
theorem seg_tile (f : Fin 2048 → EReal) (lo n : ℕ) (hlo : lo ≤ 16 * n) (hn : n < 128) :
    seg f lo (16 * (n + 1)) = seg f lo (16 * n) + ∑ b : Fin 16, f ⟨16 * n + b.val, by have := b.isLt; omega⟩ := by
  unfold seg
  rw [← Finset.sum_Ico_consecutive _ hlo (by omega : 16 * n ≤ 16 * (n + 1))]
  congr 1
  rw [Finset.sum_Ico_eq_sum_range, show 16 * (n + 1) - 16 * n = 16 by omega, Finset.sum_range]
  refine Finset.sum_congr rfl fun b _ => ?_
  have := b.isLt
  unfold ext
  rw [dif_pos (by omega)]

/-- An empty range sums to 0. -/
theorem seg_self (f : Fin 2048 → EReal) (lo : ℕ) : seg f lo lo = 0 := by
  unfold seg; rw [Finset.Ico_self, Finset.sum_empty]

/-- A tile that opens a half of the batch (n = 0 or 64): the running sum restarts from 0. -/
theorem seg_start (f : Fin 2048 → EReal) (n : ℕ) (h0 : n % 64 = 0) (hn : n < 128) :
    seg f (1024 * (n / 64)) (16 * (n + 1)) = 0 + ∑ b : Fin 16, f ⟨16 * n + b.val, by have := b.isLt; omega⟩ := by
  have e : 1024 * (n / 64) = 16 * n := by omega
  rw [e, seg_tile f (16 * n) n le_rfl hn, seg_self]

/-- Any other tile p + 1: the running sum of tile p, plus this tile. -/
theorem seg_step (f : Fin 2048 → EReal) (p : ℕ) (h0 : ¬(p + 1) % 64 = 0) (hn : p + 1 < 128) :
    seg f (1024 * ((p + 1) / 64)) (16 * ((p + 1) + 1))
      = seg f (1024 * (p / 64)) (16 * (p + 1)) + ∑ b : Fin 16, f ⟨16 * (p + 1) + b.val, by have := b.isLt; omega⟩ := by
  have e1 : (p + 1) / 64 = p / 64 := by omega
  rw [e1]
  exact seg_tile f _ (p + 1) (by omega) hn

/-- The two halves of the batch together are the whole batch. -/
theorem seg_halves (f : Fin 2048 → EReal) : seg f 0 1024 + seg f 1024 2048 = ∑ B : Fin 2048, f B := by
  unfold seg
  rw [Finset.sum_Ico_consecutive _ (by omega) (by omega), Nat.Ico_zero_eq_range, Finset.sum_range]
  refine Finset.sum_congr rfl fun B _ => ?_
  unfold ext
  rw [dif_pos B.isLt]

/-- The last tile of half s (s = 0, 1) leaves the sum over that half's 1024 samples. -/
theorem seg_half_end (f : Fin 2048 → EReal) (n s : ℕ) (hs : n / 64 = s) (h63 : n % 64 = 63) :
    seg f (1024 * (n / 64)) (16 * (n + 1)) = seg f (1024 * s) (1024 * (s + 1)) := by
  have e : 16 * (n + 1) = 1024 * (s + 1) := by omega
  rw [hs, e]

/-- A one-bit word widened to 32 bits and read signed is the bit read unsigned: the kernel's and the
    reference's conversions of the comparison bit agree. -/
theorem toInt_setWidth_bit (b : BitVec 1) : (((b.setWidth 32).toInt : ℝ) : EReal) = ((b.toNat : ℝ) : EReal) := by
  rcases BitVec.eq_zero_or_eq_one b with rfl | rfl <;> simp

/-- How both programs finish, from the total T and the count C (rank-0 arrays): T / max(C, 1) where C > 0, else 0 —
    the same host operations in the same order on both sides. -/
def lossOf {F : FTy → Type} [FloatOps F] (T C : FVec F ⟨0, ![]⟩ .f32) : FVec F ⟨0, ![]⟩ .f32 :=
  select (cmpf (F := F) .ogt C (constant (F := F) ⟨0, ![]⟩ .f32 0x00000000#32))
    (Host.divf T (maximumf C (constant (F := F) ⟨0, ![]⟩ .f32 0x3F800000#32)))
    (constant (F := F) ⟨0, ![]⟩ .f32 0x00000000#32)

end Cert.ProtoLoss

end
-- ==== Proof.KPieces.lean ====
/-
  What one run of the kernel body leaves in the two accumulator blocks, as values.

  The body keeps two resident (1, 8, 128) blocks: the running total and the running count. At a grid
  point that opens a half of the batch (second grid coordinate 0) it first stores zeros into both, then
  adds the tile's contribution; at every other point it adds the tile's contribution to what the point
  before left. So with x0 the prototype block, x1 the feature tile, x2 the label tile:
      opening point:  total ← tileTotal(x1, x0, x2) added to the zero block,  count ← tileCount(x2) added to the zero block
      other points :  total ← tileTotal(x1, x0, x2) added to the old total,   count ← tileCount(x2) added to the old count
  where "added to a block v" is the body's one store into that block: `k0_pay6 x1 x0 x2 v` for the total and
  `k0_pay1 (k0_pay5 x2) v` for the count.
-/
import proofs.«147270_j57853209477371_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Not an opening point: the total block ends at the old total plus the tile's masked distances. -/
theorem out_B_3 (c : Dev nD) (i : grid0.Coords) (arg2 : Memref sig .tc .vmem S80x1024 .f32) (harg2 : arg2.IsWhole) (arg3 : Memref sig .tc .vmem S16x80x1024 .f32) (harg3 : arg3.IsWhole) (arg4 : Memref sig .tc .vmem S16x80 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S80x1024 .f32) (x1 : Vec F S16x80x1024 .f32) (x2 : Vec F S16x80 .i32) (xo3 xo4 : Vec F S1x8x128 .f32) :
    out0_B_3 c i arg2 harg2 arg3 harg3 arg4 harg4 arg5 harg5 arg6 harg6 hc0 x0 x1 x2 xo3 xo4 = k0_pay6 x1 x0 x2 xo3 := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  sl_unfold_words
  rw [View.canon_unit_zero hz3]
  simp only [View.readAt_eq_ld, harg2.read_unread, harg3.read_unread, harg4.read_unread, harg5.read_unread, harg6.read_unread, View.ld_unit_zero (S := S80x1024) hz2, View.ld_unit_zero (S := S16x80) hz2, View.ld_unit_zero (S := S16x80x1024) hz3, View.ld_unit_zero (S := S1x8x128) hz3]

/-- Not an opening point: the count block ends at the old count plus the tile's number of labels 1. -/
theorem out_B_4 (c : Dev nD) (i : grid0.Coords) (arg2 : Memref sig .tc .vmem S80x1024 .f32) (harg2 : arg2.IsWhole) (arg3 : Memref sig .tc .vmem S16x80x1024 .f32) (harg3 : arg3.IsWhole) (arg4 : Memref sig .tc .vmem S16x80 .i32) (harg4 : arg4.IsWhole) (arg5 : Memref sig .tc .vmem S1x8x128 .f32) (harg5 : arg5.IsWhole) (arg6 : Memref sig .tc .vmem S1x8x128 .f32) (harg6 : arg6.IsWhole) (hc0 : ¬cond0_0 i)
    (x0 : Vec F S80x1024 .f32) (x1 : Vec F S16x80x1024 .f32) (x2 : Vec F S16x80 .i32) (xo3 xo4 : Vec F S1x8x128 .f32) :
    out0_B_4 c i arg2 harg2 arg3 harg3 arg4 harg4 arg5 harg5 arg6 harg6 hc0 x0 x1 x2 xo3 xo4 = k0_pay1 (k0_pay5 x2) xo4 := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  rw [View.canon_unit_zero hz3]
  simp only [View.readAt_eq_ld, harg2.read_unread, harg3.read_unread, harg4.read_unread, harg5.read_unread, harg6.read_unread, View.ld_unit_zero (S := S80x1024) hz2, View.ld_unit_zero (S := S16x80) hz2, View.ld_unit_zero (S := S16x80x1024) hz3, View.ld_unit_zero (S := S1x8x128) hz3]

/-- An opening point: the total block is zeroed, read back, and ends at zero plus the tile's masked distances. -/
theorem out_A_3 (c : Dev nD) (i : grid0.Coords) (arg2 : Memref sig .tc .vmem S80x1024 .f32) (harg2 : arg2.IsWhole) (arg3 : Memref sig .tc .vmem S16x80x1024 .f32) (harg3 : arg3.IsWhole) (arg4 : Memref sig .tc .vmem S16x80 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S80x1024 .f32) (x1 : Vec F S16x80x1024 .f32) (x2 : Vec F S16x80 .i32) :
    out0_A_3 c i arg2 harg2 arg3 harg3 arg4 harg4 arg5 harg5 arg6 harg6 hc0 x0 x1 x2 = k0_pay6 x1 x0 x2 (k0_pay2 (F := F)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread, harg6.read_unread, View.ld_unit_zero (S := S80x1024) hz2, View.ld_unit_zero (S := S16x80) hz2, View.ld_unit_zero (S := S16x80x1024) hz3, View.ld_unit_zero (S := S1x8x128) hz3]

/-- An opening point: the count block is zeroed, read back, and ends at zero plus the tile's number of labels 1. -/
theorem out_A_4 (c : Dev nD) (i : grid0.Coords) (arg2 : Memref sig .tc .vmem S80x1024 .f32) (harg2 : arg2.IsWhole) (arg3 : Memref sig .tc .vmem S16x80x1024 .f32) (harg3 : arg3.IsWhole) (arg4 : Memref sig .tc .vmem S16x80 .i32) (harg4 : arg4.IsWhole) (arg5 : Memref sig .tc .vmem S1x8x128 .f32) (harg5 : arg5.IsWhole) (arg6 : Memref sig .tc .vmem S1x8x128 .f32) (harg6 : arg6.IsWhole) (hc0 : cond0_0 i)
    (x0 : Vec F S80x1024 .f32) (x1 : Vec F S16x80x1024 .f32) (x2 : Vec F S16x80 .i32) :
    out0_A_4 c i arg2 harg2 arg3 harg3 arg4 harg4 arg5 harg5 arg6 harg6 hc0 x0 x1 x2 = k0_pay1 (k0_pay5 x2) (k0_pay3 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread, harg6.read_unread, View.ld_unit_zero (S := S80x1024) hz2, View.ld_unit_zero (S := S16x80) hz2, View.ld_unit_zero (S := S16x80x1024) hz3, View.ld_unit_zero (S := S1x8x128) hz3]

end Cert.KernelIdeal.Val

end
-- ==== Proof.KPay.lean ====
/-
  The kernel body's two stores read at an index, at the ideal instance.

  With v3 the feature tile (16, 80, 1024), v4 the prototype block (80, 1024), v10 the label tile (16, 80) and v the
  old contents of an accumulator block (1, 8, 128), every entry j of what the body stores is
      total block:  v[j] + Σ_b Σ_c (Σ_d (v3[b, c, d] − v4[c, d])²) · ind(v10[b, c])
      count block:  v[j] + Σ_b Σ_c ind(v10[b, c])
  — the lane reduction over d, the two keepdims reductions over c and b, the casts through one-element shapes and the
  broadcast back to the block are all re-indexings of these sums.
-/
import proofs.«147270_j57853209477371_1_alg».proof.Proof.Gen.KernelIdeal.Skeleton
import proofs.«147270_j57853209477371_1_alg».proof.Proof.Spec
import Idealize.ShloMosaic.Lib.Pipeline.Value
import Idealize.ShloMosaic.Lib.ValueIdx
import Idealize.ShloMosaic.Lib.ValueIdxRank1
import Idealize.ShloMosaic.Lib.ValueLayout
import Idealize.ShloMosaic.PureOps.Ideal.Laws

noncomputable section

open scoped BigOperators
open Idealize.ShloMosaic Idealize.ShloMosaic.ValueIdx

namespace Cert.KernelIdeal.Val

open Cert.KernelIdeal Cert.KernelIdeal.Gen Cert.KernelIdeal.Facts₀ Cert.ProtoLoss

/-- A one-element vector has one index. -/
theorem idx_S1_unique (i k : S1.Idx) : i = k :=
  funext fun a => match a with
    | ⟨0, h⟩ => Fin.ext (by
        have h1 : (i ⟨0, h⟩).val < 1 := (i ⟨0, h⟩).isLt
        have h2 : (k ⟨0, h⟩).val < 1 := (k ⟨0, h⟩).isLt
        omega)

/-- The keepdims tail of both stores: a (16, 80) vector u summed over its lanes, then over its rows, carried through
    one-element shapes and broadcast to the block, is Σ_b Σ_c u[b, c] at every entry of the block. -/
theorem tile_sum_apply (u : FVec Ideal S16x80 .f32)
    (hr1 : S16x80.Reduces [1] S16) (hc1 : S16.ShapeCasts S16x1) (hr0 : S16x1.Reduces [0] S1) (hc2 : S1.ShapeCasts S1x1)
    (hc3 : S1x1.ShapeCasts S1x1x1) (hc4 : S1x1x1.ShapeCasts S1x1x1) (hb : S1x1x1.Broadcasts S1x8x128)
    (hφ : FKind.Formats .f32) (ha : (0x00000000#32 : BitVec 32) = FKind.add.neutral .f32 hφ) (j : S1x8x128.Idx) :
    broadcastTo S1x8x128 (shapeCast S1x1x1 (shapeCast S1x1x1 (shapeCast S1x1
        (multiReduction .add [0] S1 (shapeCast S16x1 (multiReduction .add [1] S16 u 0x00000000#32 hr1 hφ ha) hc1)
          0x00000000#32 hr0 hφ ha) hc2) hc3) hc4) hb j
      = ∑ b : Fin 16, ∑ c : Fin 80, u (ix2 b c) := by
  have key : ∀ w : FVec Ideal S1 .f32,
      broadcastTo S1x8x128 (shapeCast S1x1x1 (shapeCast S1x1x1 (shapeCast S1x1 w hc2) hc3) hc4) hb j = w (ix1 (0 : Fin 1)) :=
    fun w => congrArg w (idx_S1_unique _ _)
  rw [key]
  rw [Ideal.multiReduction_add_total _ _ hr0 (fun b => by fin_cases b; rfl) hφ ha]
  unfold shapeCast
  rw [Equiv.sum_comp (Shape.reshapeEquiv hc1) (multiReduction .add [1] S16 u 0x00000000#32 hr1 hφ ha),
    ← Equiv.sum_comp (idxEquiv1 (n := 16)).symm]
  refine Finset.sum_congr rfl fun b _ => ?_
  refine (Ideal.multiReduction_add_single u _ hr1 hφ ha (ix1 b)).trans ?_
  refine Finset.sum_congr rfl fun c _ => congrArg u ?_
  funext a
  match a with
  | ⟨0, _⟩ => rfl
  | ⟨1, _⟩ => rfl

/-- The mask: 1 where the label is 1, else 0. -/
theorem pay4_apply (v10 : Vec Ideal S16x80 .i32) (b : Fin 16) (c : Fin 80) :
    k0_pay4 (F := Ideal) v10 (ix2 b c) = ind (v10 (ix2 b c)) := by
  unfold k0_pay4 ind
  exact toInt_setWidth_bit _

/-- The squared distance of one (sample, class) of the tile: the lane reduction over d. -/
theorem dist_apply (v3 : FVec Ideal S16x80x1024 .f32) (v4 : FVec Ideal S80x1024 .f32)
    (hs : S80x1024.ShapeCasts S1x80x1024) (hb : S1x80x1024.Broadcasts S16x80x1024) (hr : S16x80x1024.Reduces [2] S16x80)
    (hφ : FKind.Formats .f32) (ha : (0x00000000#32 : BitVec 32) = FKind.add.neutral .f32 hφ) (b : Fin 16) (c : Fin 80) :
    multiReduction (F := Ideal) .add [2] S16x80
        (mulf (subf v3 (broadcastTo S16x80x1024 (shapeCast S1x80x1024 v4 hs) hb))
          (subf v3 (broadcastTo S16x80x1024 (shapeCast S1x80x1024 v4 hs) hb))) 0x00000000#32 hr hφ ha (ix2 b c)
      = ∑ d : Fin 1024, (v3 (ix3 b c d) - v4 (ix2 c d)) * (v3 (ix3 b c d) - v4 (ix2 c d)) := by
  refine (Ideal.multiReduction_add_single _ _ hr hφ ha (ix2 b c)).trans ?_
  refine Finset.sum_congr rfl fun d _ => ?_
  have e : hr.lift (ix2 b c) d = ix3 b c d := by
    funext a
    match a with
    | ⟨0, _⟩ => rfl
    | ⟨1, _⟩ => rfl
    | ⟨2, _⟩ => rfl
  rw [e]
  have p : broadcastTo S16x80x1024 (shapeCast S1x80x1024 v4 hs) hb (ix3 b c d) = v4 (ix2 c d) := by
    refine (broadcastTo_apply _ hb (ix3 b c d) (ix3 (0 : Fin 1) c d) fun a => ?_).trans (shapeCast_ab_1ab_apply v4 hs 0 c d)
    match a with
    | ⟨0, _⟩ => rfl
    | ⟨1, _⟩ => rfl
    | ⟨2, _⟩ => rfl
  show (v3 (ix3 b c d) - broadcastTo S16x80x1024 (shapeCast S1x80x1024 v4 hs) hb (ix3 b c d))
      * (v3 (ix3 b c d) - broadcastTo S16x80x1024 (shapeCast S1x80x1024 v4 hs) hb (ix3 b c d)) = _
  rw [p]

/-- The store into the total block, at an entry. -/
theorem pay6_apply (v3 : Vec Ideal S16x80x1024 .f32) (v4 : Vec Ideal S80x1024 .f32) (v10 : Vec Ideal S16x80 .i32)
    (v24 : Vec Ideal S1x8x128 .f32) (j : S1x8x128.Idx) :
    k0_pay6 (F := Ideal) v3 v4 v10 v24 j
      = v24 j + ∑ b : Fin 16, ∑ c : Fin 80,
          (∑ d : Fin 1024, (v3 (ix3 b c d) - v4 (ix2 c d)) * (v3 (ix3 b c d) - v4 (ix2 c d))) * ind (v10 (ix2 b c)) := by
  unfold k0_pay6
  refine congrArg₂ (· + ·) (congrFun (shapeCast_self v24 _) j) ?_
  refine (tile_sum_apply _ _ _ _ _ _ _ _ _ _ j).trans ?_
  refine Finset.sum_congr rfl fun b _ => Finset.sum_congr rfl fun c _ => ?_
  exact congrArg₂ (· * ·) (dist_apply v3 v4 _ _ _ _ _ b c) (pay4_apply v10 b c)

/-- The store into the count block, at an entry. -/
theorem pay1_apply (v10 : Vec Ideal S16x80 .i32) (v31 : Vec Ideal S1x8x128 .f32) (j : S1x8x128.Idx) :
    k0_pay1 (F := Ideal) (k0_pay5 (F := Ideal) v10) v31 j = v31 j + ∑ b : Fin 16, ∑ c : Fin 80, ind (v10 (ix2 b c)) := by
  unfold k0_pay1 k0_pay5
  refine congrArg₂ (· + ·) (congrFun (shapeCast_self v31 _) j) ?_
  refine (tile_sum_apply _ _ _ _ _ _ _ _ _ _ j).trans ?_
  exact Finset.sum_congr rfl fun b _ => Finset.sum_congr rfl fun c _ => pay4_apply v10 b c

/-- The zero block an opening point stores first is 0 at every entry. -/
theorem pay2_apply (j : S1x8x128.Idx) : k0_pay2 (F := Ideal) j = 0 := Ideal.ofBits_zero_f32
theorem pay3_apply (j : S1x8x128.Idx) : k0_pay3 (F := Ideal) j = 0 := Ideal.ofBits_zero_f32

end Cert.KernelIdeal.Val

end
-- ==== Proof.KAcc.lean ====
/-
  The running sums across the grid, and what the two result arrays of the kernel end holding.

  Grid point t (0 ≤ t < 128) sees feature tile t — samples 16t .. 16t+15 — with its labels, and the whole prototype
  array. The total block after point t therefore holds the masked squared distances of the samples from the start
  of t's half of the batch (sample 1024·(t/64)) up to the end of tile t (sample 16·(t+1)), summed; the count block the
  same for the indicators. The blocks are written back after the last point of each half (t = 63, 127), into row
  t/64 of the (2, 8, 128) result arrays: entry (s, ·, ·) of each array is half s's sum.
-/
import proofs.«147270_j57853209477371_1_alg».proof.Proof.KPieces
import proofs.«147270_j57853209477371_1_alg».proof.Proof.KPay

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.ProtoLoss

section Blocks

variable {F : FTy → Type} [FloatOps F]
variable (m : (ℓ : Loc nD τ sig) → Buf (Elt F) ℓ)

/-- The three input blocks at a point and the three argument arrays, at their literal types. -/
abbrev pblk (c : Dev nD) (t : Fin cfg0.N) : Vec F S80x1024 .f32 := iblk m c 0 t
abbrev xblk (c : Dev nD) (t : Fin cfg0.N) : Vec F S16x80x1024 .f32 := iblk m c 1 t
abbrev lblk (c : Dev nD) (t : Fin cfg0.N) : Vec F S16x80 .i32 := iblk m c 2 t
abbrev parr (c : Dev nD) : Vec F S80x1024 .f32 := V m c main_arg0
abbrev xarr (c : Dev nD) : Vec F S2048x80x1024 .f32 := V m c main_arg1
abbrev larr (c : Dev nD) : Vec F S2048x80 .i32 := V m c main_arg2

/-- Where each window's block sits at point t: the prototype block is the whole array, feature and label tile t
    are block t along the batch axis, and both result blocks are row t / 64. -/
theorem idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val / 64 ∧ win0_3.index t (1 : Fin 3) = 0 ∧ win0_3.index t (2 : Fin 3) = 0
    ∧ win0_4.index t (0 : Fin 3) = t.val / 64 ∧ win0_4.index t (1 : Fin 3) = 0 ∧ win0_4.index t (2 : Fin 3) = 0 :=
  (by decide +kernel : ∀ t : Fin grid0.N, _)

theorem lt128 (t : Fin cfg0.N) : t.val < 128 := lt_of_lt_of_eq t.isLt (show cfg0.N = 128 from N_0)

/-- The prototype block is the prototype array. -/
theorem pblk_apply (c : Dev nD) (t : Fin cfg0.N) (c' : Fin 80) (d : Fin 1024) :
    pblk m c t (ix2 c' d) = parr m c (ix2 c' d) := by
  obtain ⟨e0, e1, -⟩ := idx_facts t
  show V m c main_arg0 (((cfg0.win 0).blk t).view.emb (ix2 c' d)) = V m c main_arg0 (ix2 c' d)
  refine congrArg (V m c main_arg0) (funext fun a => Fin.ext ?_)
  match a with
  | ⟨0, _⟩ => show win0_0.index t (0 : Fin 2) * 80 + 1 * c'.val = c'.val; omega
  | ⟨1, _⟩ => show win0_0.index t (1 : Fin 2) * 1024 + 1 * d.val = d.val; omega

/-- Row b of feature tile t is sample 16t + b. -/
theorem xblk_apply (c : Dev nD) (t : Fin cfg0.N) (b : Fin 16) (c' : Fin 80) (d : Fin 1024) :
    xblk m c t (ix3 b c' d)
      = xarr m c (ix3 (⟨16 * t.val + b.val, by have := lt128 t; have := b.isLt; omega⟩ : Fin 2048) c' d) := by
  obtain ⟨-, -, e0, e1, e2, -⟩ := idx_facts t
  show V m c main_arg1 (((cfg0.win 1).blk t).view.emb (ix3 b c' d)) = V m c main_arg1 _
  refine congrArg (V m c main_arg1) (funext fun a => Fin.ext ?_)
  match a with
  | ⟨0, _⟩ => show win0_1.index t (0 : Fin 3) * 16 + 1 * b.val = 16 * t.val + b.val; omega
  | ⟨1, _⟩ => show win0_1.index t (1 : Fin 3) * 80 + 1 * c'.val = c'.val; omega
  | ⟨2, _⟩ => show win0_1.index t (2 : Fin 3) * 1024 + 1 * d.val = d.val; omega

/-- Row b of label tile t is sample 16t + b. -/
theorem lblk_apply (c : Dev nD) (t : Fin cfg0.N) (b : Fin 16) (c' : Fin 80) :
    lblk m c t (ix2 b c')
      = larr m c (ix2 (⟨16 * t.val + b.val, by have := lt128 t; have := b.isLt; omega⟩ : Fin 2048) c') := by
  obtain ⟨-, -, -, -, -, e0, e1, -⟩ := idx_facts t
  show V m c main_arg2 (((cfg0.win 2).blk t).view.emb (ix2 b c')) = V m c main_arg2 _
  refine congrArg (V m c main_arg2) (funext fun a => Fin.ext ?_)
  match a with
  | ⟨0, _⟩ => show win0_2.index t (0 : Fin 2) * 16 + 1 * b.val = 16 * t.val + b.val; omega
  | ⟨1, _⟩ => show win0_2.index t (1 : Fin 2) * 80 + 1 * c'.val = c'.val; omega

end Blocks

section AtIdeal

variable (m : (ℓ : Loc nD τ sig) → Buf (Elt Ideal) ℓ)

/-- Each sample's share of the total and of the count, over the arrays as the region finds them. -/
abbrev fT (c : Dev nD) : Fin 2048 → EReal := rowTot (parr m c) (xarr m c) (larr m c)
abbrev fC (c : Dev nD) : Fin 2048 → EReal := rowCnt (larr m c)

/-- Tile t's contribution to the total is the shares of its sixteen samples. -/
theorem tileTot_eq (c : Dev nD) (t : Fin cfg0.N) :
    (∑ b : Fin 16, ∑ c' : Fin 80,
        (∑ d : Fin 1024, (xblk m c t (ix3 b c' d) - pblk m c t (ix2 c' d)) * (xblk m c t (ix3 b c' d) - pblk m c t (ix2 c' d)))
          * ind (lblk m c t (ix2 b c')))
      = ∑ b : Fin 16, fT m c ⟨16 * t.val + b.val, by have := lt128 t; have := b.isLt; omega⟩ := by
  refine Finset.sum_congr rfl fun b _ => Finset.sum_congr rfl fun c' _ => ?_
  rw [lblk_apply]
  refine congrArg₂ (· * ·) (Finset.sum_congr rfl fun d _ => ?_) rfl
  rw [xblk_apply, pblk_apply]

/-- Tile t's contribution to the count likewise. -/
theorem tileCnt_eq (c : Dev nD) (t : Fin cfg0.N) :
    (∑ b : Fin 16, ∑ c' : Fin 80, ind (lblk m c t (ix2 b c')))
      = ∑ b : Fin 16, fC m c ⟨16 * t.val + b.val, by have := lt128 t; have := b.isLt; omega⟩ := by
  refine Finset.sum_congr rfl fun b _ => Finset.sum_congr rfl fun c' _ => ?_
  rw [lblk_apply]

/-- THE RUNNING SUMS: after point n every entry of the total block is the shares of the samples from the start of
    n's half up to the end of tile n, and every entry of the count block the same for the indicators. By induction on
    the point: an opening point restarts from zero, any other adds its tile to what the point before left. -/
theorem acc_eq (c : Dev nD) : ∀ (n : ℕ) (h : n < cfg0.N),
    (outsAt0 m c n h).1 = (fun _ => seg (fT m c) (1024 * (n / 64)) (16 * (n + 1)) : Vec Ideal S1x8x128 .f32)
    ∧ (outsAt0 m c n h).2 = (fun _ => seg (fC m c) (1024 * (n / 64)) (16 * (n + 1)) : Vec Ideal S1x8x128 .f32)
  | 0, h => by
    have hA := outsAt0_A m c ⟨0, h⟩ (Nat.zero_mod 64)
    constructor
    · refine (congrArg Prod.fst hA).trans ?_
      dsimp only
      rw [out_A_3]
      funext j
      rw [pay6_apply, pay2_apply]
      exact (congrArg (0 + ·) (tileTot_eq m c ⟨0, h⟩)).trans (seg_start (fT m c) 0 rfl (by omega)).symm
    · refine (congrArg Prod.snd hA).trans ?_
      dsimp only
      rw [out_A_4]
      funext j
      rw [pay1_apply, pay3_apply]
      exact (congrArg (0 + ·) (tileCnt_eq m c ⟨0, h⟩)).trans (seg_start (fC m c) 0 rfl (by omega)).symm
  | n + 1, h => by
    have ih := acc_eq c n (Nat.lt_of_succ_lt h)
    have hN : n + 1 < 128 := lt_of_lt_of_eq h (show cfg0.N = 128 from N_0)
    by_cases h0 : (n + 1) % 64 = 0
    · have hA := outsAt0_A m c ⟨n + 1, h⟩ h0
      constructor
      · refine (congrArg Prod.fst hA).trans ?_
        dsimp only
        rw [out_A_3]
        funext j
        rw [pay6_apply, pay2_apply]
        exact (congrArg (0 + ·) (tileTot_eq m c ⟨n + 1, h⟩)).trans (seg_start (fT m c) (n + 1) h0 hN).symm
      · refine (congrArg Prod.snd hA).trans ?_
        dsimp only
        rw [out_A_4]
        funext j
        rw [pay1_apply, pay3_apply]
        exact (congrArg (0 + ·) (tileCnt_eq m c ⟨n + 1, h⟩)).trans (seg_start (fC m c) (n + 1) h0 hN).symm
    · have hB := outsAt0_B m c ⟨n + 1, h⟩ h0
      constructor
      · rw [hB]
        dsimp only
        rw [out_B_3]
        funext j
        rw [pay6_apply]
        show (outsAt0 m c n _).1 j + _ = _
        rw [ih.1]
        exact (congrArg (seg (fT m c) (1024 * (n / 64)) (16 * (n + 1)) + ·) (tileTot_eq m c ⟨n + 1, h⟩)).trans
          (seg_step (fT m c) n h0 hN).symm
      · rw [hB]
        dsimp only
        rw [out_B_4]
        funext j
        rw [pay1_apply]
        show (outsAt0 m c n _).2 j + _ = _
        rw [ih.2]
        exact (congrArg (seg (fC m c) (1024 * (n / 64)) (16 * (n + 1)) + ·) (tileCnt_eq m c ⟨n + 1, h⟩)).trans
          (seg_step (fC m c) n h0 hN).symm

end AtIdeal

end Cert.KernelIdeal.Val

end
-- ==== Proof.KFinal.lean ====
/-
  What the kernel's two result arrays end holding, and the run of the idealized kernel read as values.

  Each result block is written back once per half of the batch, after the half's last tile (points 63 and 127), into
  row s = t / 64 of its (2, 8, 128) array; by then it holds the sum over the half's 1024 samples. So entry (s, ·, ·)
  of the total array is Σ over samples 1024s .. 1024s+1023 of the sample's share of the total, and of the count array
  the same for the indicators.
-/
import proofs.«147270_j57853209477371_1_alg».proof.Proof.KAcc

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.ProtoLoss

variable (m : (ℓ : Loc nD τ sig) → Buf (Elt Ideal) ℓ)

/-- Half s's sum of a per-sample quantity, as contents of a (2, 8, 128) result array: row s holds it at every entry. -/
abbrev halves (f : Fin 2048 → EReal) : S2x8x128.Idx → EReal :=
  fun i => seg f (1024 * (i 0).val) (1024 * ((i 0).val + 1))

abbrev resT (c : Dev nD) : Buf (Elt Ideal) ((c : Thread nD τ).loc main_v0_0) := halves (fT m c)
abbrev resC (c : Dev nD) : Buf (Elt Ideal) ((c : Thread nD τ).loc main_v0_1) := halves (fC m c)

/-- The first coordinate of an index of result block t, seen in the array, is t / 64. -/
theorem emb3_val (t : Fin cfg0.N) (j : S1x8x128.Idx) : ((((cfg0.win 3).blk t).view.emb j) 0).val = t.val / 64 := by
  obtain ⟨-, -, -, -, -, -, -, e0, -⟩ := idx_facts t
  have hj : (j 0).val < 1 := (j 0).isLt
  show win0_3.index t (0 : Fin 3) * 1 + 1 * (j 0).val = t.val / 64
  omega
theorem emb4_val (t : Fin cfg0.N) (j : S1x8x128.Idx) : ((((cfg0.win 4).blk t).view.emb j) 0).val = t.val / 64 := by
  obtain ⟨-, -, -, -, -, -, -, -, -, -, e0, -⟩ := idx_facts t
  have hj : (j 0).val < 1 := (j 0).isLt
  show win0_4.index t (0 : Fin 3) * 1 + 1 * (j 0).val = t.val / 64
  omega

/-- What a write-back of the total block writes: the half's sum, into the half's row. -/
theorem flushedT_eq (c : Dev nD) (t : Fin cfg0.N) (hf : (cfg0.win 3).flush t = true) :
    (dats m 0 c).flushed 3 t = ((cfg0.win 3).blk t).view.read (Elt Ideal) (resT m c) := by
  have h63 : t.val % 64 = 63 := (flush0_3 t).mp hf
  show (cfg0.win 3).cut (grid0.coords t) ((dats m 0 c).after 3 t) = _
  rw [after0_3, (acc_eq m c t.val t.isLt).1]
  funext j
  show seg (fT m c) (1024 * (t.val / 64)) (16 * (t.val + 1))
    = seg (fT m c) (1024 * ((((cfg0.win 3).blk t).view.emb j) 0).val) (1024 * (((((cfg0.win 3).blk t).view.emb j) 0).val + 1))
  rw [emb3_val]
  exact seg_half_end (fT m c) t.val (t.val / 64) rfl h63

/-- What a write-back of the count block writes. -/
theorem flushedC_eq (c : Dev nD) (t : Fin cfg0.N) (hf : (cfg0.win 4).flush t = true) :
    (dats m 0 c).flushed 4 t = ((cfg0.win 4).blk t).view.read (Elt Ideal) (resC m c) := by
  have h63 : t.val % 64 = 63 := (flush0_4 t).mp hf
  show (cfg0.win 4).cut (grid0.coords t) ((dats m 0 c).after 4 t) = _
  rw [after0_4, (acc_eq m c t.val t.isLt).2]
  funext j
  show seg (fC m c) (1024 * (t.val / 64)) (16 * (t.val + 1))
    = seg (fC m c) (1024 * ((((cfg0.win 4).blk t).view.emb j) 0).val) (1024 * (((((cfg0.win 4).blk t).view.emb j) 0).val + 1))
  rw [emb4_val]
  exact seg_half_end (fC m c) t.val (t.val / 64) rfl h63

/-- An index of a result array lies in point t's block iff each coordinate is in the block's range. -/
theorem mem_blk3 (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0_0).slice (win0_3.rect t)).set ↔ _
  rw [View.set_slice_whole, Rect.mem_set_unit]
  exact Iff.rfl
theorem mem_blk4 (t : Fin cfg0.N) (i : S2x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v0_1).slice (win0_4.rect t)).set ↔ _
  rw [View.set_slice_whole, Rect.mem_set_unit]
  exact Iff.rfl

/-- The last point of half s, as a grid point. -/
def lastOf (s : ℕ) (hs : s < 2) : Fin cfg0.N := ⟨64 * s + 63, by rw [show cfg0.N = 128 from N_0]; omega⟩

/-- Every entry of the total array is written by the write-back after its half's last point. -/
theorem coverT (i : S2x8x128.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 128 := (i 2).isLt
  refine ⟨lastOf (i 0).val h0, (flush0_3 _).mpr (by show (64 * (i 0).val + 63) % 64 = 63; omega), ?_⟩
  obtain ⟨-, -, -, -, -, -, -, e0, e1, e2, -⟩ := idx_facts (lastOf (i 0).val h0)
  have ev : (lastOf (i 0).val h0).val = 64 * (i 0).val + 63 := rfl
  rw [mem_blk3]
  intro a
  match a with
  | ⟨0, _⟩ => show win0_3.index (lastOf (i 0).val h0) (0 : Fin 3) * 1 ≤ (i 0).val ∧ (i 0).val < win0_3.index (lastOf (i 0).val h0) (0 : Fin 3) * 1 + 1; omega
  | ⟨1, _⟩ => show win0_3.index (lastOf (i 0).val h0) (1 : Fin 3) * 8 ≤ (i 1).val ∧ (i 1).val < win0_3.index (lastOf (i 0).val h0) (1 : Fin 3) * 8 + 8; omega
  | ⟨2, _⟩ => show win0_3.index (lastOf (i 0).val h0) (2 : Fin 3) * 128 ≤ (i 2).val ∧ (i 2).val < win0_3.index (lastOf (i 0).val h0) (2 : Fin 3) * 128 + 128; omega

/-- Every entry of the count array likewise. -/
theorem coverC (i : S2x8x128.Idx) : ∃ t : Fin cfg0.N, (cfg0.win 4).flush t = true ∧ i ∈ ((cfg0.win 4).blk t).view.set := by
  have h0 : (i 0).val < 2 := (i 0).isLt
  have h1 : (i 1).val < 8 := (i 1).isLt
  have h2 : (i 2).val < 128 := (i 2).isLt
  refine ⟨lastOf (i 0).val h0, (flush0_4 _).mpr (by show (64 * (i 0).val + 63) % 64 = 63; omega), ?_⟩
  obtain ⟨-, -, -, -, -, -, -, -, -, -, e0, e1, e2⟩ := idx_facts (lastOf (i 0).val h0)
  have ev : (lastOf (i 0).val h0).val = 64 * (i 0).val + 63 := rfl
  rw [mem_blk4]
  intro a
  match a with
  | ⟨0, _⟩ => show win0_4.index (lastOf (i 0).val h0) (0 : Fin 3) * 1 ≤ (i 0).val ∧ (i 0).val < win0_4.index (lastOf (i 0).val h0) (0 : Fin 3) * 1 + 1; omega
  | ⟨1, _⟩ => show win0_4.index (lastOf (i 0).val h0) (1 : Fin 3) * 8 ≤ (i 1).val ∧ (i 1).val < win0_4.index (lastOf (i 0).val h0) (1 : Fin 3) * 8 + 8; omega
  | ⟨2, _⟩ => show win0_4.index (lastOf (i 0).val h0) (2 : Fin 3) * 128 ≤ (i 2).val ∧ (i 2).val < win0_4.index (lastOf (i 0).val h0) (2 : Fin 3) * 128 + 128; omega

/-- The total array after the region: row s holds half s's total. -/
theorem finalT (c : Dev nD) : (dats m 0 c).arrAt 3 cfg0.N = resT m c :=
  (dats m 0 c).arrAt_eq_of_cover 3 (resT m c) (flushedT_eq m c) coverT

/-- The count array after the region: row s holds half s's count. -/
theorem finalC (c : Dev nD) : (dats m 0 c).arrAt 4 cfg0.N = resC m c :=
  (dats m 0 c).arrAt_eq_of_cover 4 (resC m c) (flushedC_eq m c) coverC

end Cert.KernelIdeal.Val

end
-- ==== Proof.KTail.lean ====
/-
  The host operations after the kernel, and the idealized kernel's run read as one value.

  After the region @main takes entry (s, 0, 0) of each result array for s = 0, 1, adds the two from zero — the total
  and the count over the whole batch — and finishes with the common last steps (`lossOf`). With the result arrays as
  KFinal states them, the two host sums are  0 + (half 0 + half 1) = 0 + Σ over all 2048 samples.
-/
import proofs.«147270_j57853209477371_1_alg».proof.Proof.KFinal
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.ProtoLoss Idealize.ShloMosaic.StableHlo

variable (m : (ℓ : Loc nD τ sig) → Buf (Elt Ideal) ℓ) (ρ : Dev nD → PrngReg)

/-- What the host makes of a (2, 8, 128) result array: entries (0, 0, 0) and (1, 0, 0) added from zero. -/
def hostSum (A : FVec Ideal S2x8x128 .f32) : FVec Ideal S_ .f32 :=
  Host.reduceAdd (F := Ideal)
    (shapeCast S2 (extractStridedSlice S2x1x1 ![0, 0, 0] A slices_S2x8x128_S2x1x1_0_0_0) shapeCasts_S2x1x1_S2)
    (constant (F := Ideal) S_ .f32 0x00000000#32) reducesTo_S2_S_d0 h_S_

/-- Entry k of the sliced and flattened array is entry (k, 0, 0) of the array. -/
theorem slice_apply (A : FVec Ideal S2x8x128 .f32) (k : Fin 2) :
    shapeCast S2 (extractStridedSlice S2x1x1 ![0, 0, 0] A slices_S2x8x128_S2x1x1_0_0_0) shapeCasts_S2x1x1_S2 (ix1 k)
      = A (ix3 k (0 : Fin 8) (0 : Fin 128)) := by
  refine (shapeCast_apply _ shapeCasts_S2x1x1_S2 (ix1 k) (ix3 k (0 : Fin 1) (0 : Fin 1)) (by
    rw [Shape.rowMajor_val_three, Shape.rowMajor_val_one]
    show (k.val * 1 + 0) * 1 + 0 = k.val
    omega)).trans ?_
  refine extractStridedSlice_apply _ A slices_S2x8x128_S2x1x1_0_0_0 _ (ix3 k (0 : Fin 8) (0 : Fin 128)) fun a => ?_
  match a with
  | ⟨0, _⟩ => show k.val = 0 + k.val; omega
  | ⟨1, _⟩ => rfl
  | ⟨2, _⟩ => rfl

/-- Over an array whose row s holds half s's sum, the host's sum is zero plus the sum over the whole batch. -/
theorem hostSum_halves (f : Fin 2048 → EReal) :
    hostSum (halves f) = fun _ => Ideal.ofBits .f32 0x00000000#32 + ∑ B : Fin 2048, f B := by
  funext i
  unfold hostSum
  simp only [Host.reduceAdd, Ideal.hostReduceAdd_def]
  rw [Ideal.hostReduceAdd_total reducesTo_S2_S_d0 (fun b => b.elim0)]
  refine congrArg (Ideal.ofBits .f32 0x00000000#32 + ·) ?_
  rw [← Equiv.sum_comp (idxEquiv1 (n := 2)).symm, Fin.sum_univ_two, ← seg_halves f]
  exact congrArg₂ (· + ·) (slice_apply (halves f) 0) (slice_apply (halves f) 1)

/-- @main's result after the tail, over the result arrays the region leaves. -/
theorem tail_eq (c : Dev nD) :
    Pipeline.afterTail₀ cfgs (dats m) 0 (V0 m) [hostOps1, hostOps1_1] c main_v10
      = lossOf (F := Ideal) (hostSum (resT m c)) (hostSum (resC m c)) := by
  have eT : Pipeline.withArrays (cfgs 0).spec c (V0 m c) (fun w => (dats m 0 c).arrAt w (cfgs 0).N) (Proc.devRef .tc main_v0_0)
      = resT m c :=
    (Pipeline.withArrays_arr spec0 launch0.win.arr_inj c (V0 m c) (fun w => (dats m 0 c).arrAt w cfg0.N) 3).trans (finalT m c)
  have eC : Pipeline.withArrays (cfgs 0).spec c (V0 m c) (fun w => (dats m 0 c).arrAt w (cfgs 0).N) (Proc.devRef .tc main_v0_1)
      = resC m c :=
    (Pipeline.withArrays_arr spec0 launch0.win.arr_inj c (V0 m c) (fun w => (dats m 0 c).arrAt w cfg0.N) 4).trans (finalC m c)
  unfold Pipeline.afterTail₀
  simp only [hostOps1, hostOps1_1, List.flatten_cons, List.flatten_nil, List.append_nil, List.cons_append, List.nil_append]
  after_results
  simp only [TRef.ofBuf, TRef.toBuf, cast_eq]
  rw [eT, eC]
  rfl

/-- THE RUN of the idealized kernel, read: its result is the common last steps applied to zero plus the batch's
    total and zero plus the batch's count, over the argument arrays; the arguments end unchanged. -/
theorem run : θ_run defs (onTc (τ := τ) (main (F := Ideal))) ⟨m, fun _ => 0, ρ⟩ fun r => ∀ c : Dev nD,
      r.2.mem ((c.tc : Thread nD τ).loc main_v10)
        = lossOf (F := Ideal)
            (fun _ => Ideal.ofBits .f32 0x00000000#32 + ∑ B : Fin 2048,
              rowTot (m ((c.tc : Thread nD τ).loc main_arg0)) (m ((c.tc : Thread nD τ).loc main_arg1)) (m ((c.tc : Thread nD τ).loc main_arg2)) B)
            (fun _ => Ideal.ofBits .f32 0x00000000#32 + ∑ B : Fin 2048, rowCnt (m ((c.tc : Thread nD τ).loc main_arg2)) B)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (by decide)).trans ((tail_eq m c).trans (by rw [hostSum_halves, hostSum_halves]; rfl)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Val

end
-- ==== Proof.RefSide.lean ====
/-
  The reference, read as the same sums.

  jnp computes the squared distances by one reduction over the feature axis, multiplies by the mask, and sums the
  (2048, 80) products — and the mask itself — in one reduction over both axes, each from a zero initial value. Read
  at the ideal instance these are  0 + Σ_B Σ_c dist2(B, c) · ind(L[B, c])  and  0 + Σ_B Σ_c ind(L[B, c]).
-/
import proofs.«147270_j57853209477371_1_alg».proof.Proof.RefRead
import proofs.«147270_j57853209477371_1_alg».proof.Proof.Spec
import Idealize.ShloMosaic.Lib.ValueIdx
import Idealize.ShloMosaic.PureOps.Ideal.Laws

noncomputable section

open scoped BigOperators
open Idealize.ShloMosaic Idealize.ShloMosaic.ValueIdx

namespace Cert.ReferenceIdeal.RefVal

open Cert.ReferenceIdeal Cert.ReferenceIdeal.ReadP Cert.ProtoLoss

/-- The mask entry: the comparison bit of the label with 1, converted. -/
theorem mask_apply (x2 : (⟨S2048x80, .i32⟩ : BufTy).Contents (Elt Ideal)) (B : Fin 2048) (c : Fin 80) :
    val_main_v2 (F := Ideal) x2 (ix2 B c) = ind (x2 (ix2 B c)) := by
  rw [val_main_v2_apply, val_main_v1_apply, val_main_v0_apply, val_main_c_apply]
  rfl

/-- One (sample, class) squared distance: the reduction over the feature axis from zero. -/
theorem dist_apply (x0 : (⟨S80x1024, .f32⟩ : BufTy).Contents (Elt Ideal)) (x1 : (⟨S2048x80x1024, .f32⟩ : BufTy).Contents (Elt Ideal))
    (B : Fin 2048) (c : Fin 80) :
    val_main_v7 (F := Ideal) x0 x1 (ix2 B c) = dist2 x0 x1 B c := by
  rw [val_main_v7_apply, val_main_cst_apply]
  refine (congrArg (· + _) Ideal.ofBits_zero_f32).trans ((zero_add _).trans ?_)
  refine Finset.sum_congr rfl fun d _ => ?_
  have e : idx_main_v7 (ix2 B c) d = ix3 B c d := by
    funext a
    match a with
    | ⟨0, _⟩ => rfl
    | ⟨1, _⟩ => rfl
    | ⟨2, _⟩ => rfl
  have e' : idx_main_v3 (idx_main_v4 (ix3 B c d)) = ix2 c d := by
    funext a
    match a with
    | ⟨0, _⟩ => rfl
    | ⟨1, _⟩ => rfl
  rw [e, val_main_v6_apply, val_main_v5_apply, val_main_v4_apply, val_main_v3_apply, e']
  rfl

/-- The reference's total. -/
theorem total_eq (x0 : (⟨S80x1024, .f32⟩ : BufTy).Contents (Elt Ideal)) (x1 : (⟨S2048x80x1024, .f32⟩ : BufTy).Contents (Elt Ideal))
    (x2 : (⟨S2048x80, .i32⟩ : BufTy).Contents (Elt Ideal)) :
    val_main_v9 (F := Ideal) x0 x1 x2 = fun _ => Ideal.ofBits .f32 0x00000000#32 + ∑ B : Fin 2048, rowTot x0 x1 x2 B := by
  funext i
  rw [val_main_v9_apply, val_main_cst_0_apply]
  refine congrArg (Ideal.ofBits .f32 0x00000000#32 + ·) ?_
  rw [sum_idx2]
  refine Finset.sum_congr rfl fun B _ => Finset.sum_congr rfl fun c _ => ?_
  rw [val_main_v8_apply, dist_apply, mask_apply]
  rfl

/-- The reference's count. -/
theorem count_eq (x2 : (⟨S2048x80, .i32⟩ : BufTy).Contents (Elt Ideal)) :
    val_main_v10 (F := Ideal) x2 = fun _ => Ideal.ofBits .f32 0x00000000#32 + ∑ B : Fin 2048, rowCnt x2 B := by
  funext i
  rw [val_main_v10_apply, val_main_cst_1_apply]
  refine congrArg (Ideal.ofBits .f32 0x00000000#32 + ·) ?_
  rw [sum_idx2]
  exact Finset.sum_congr rfl fun B _ => Finset.sum_congr rfl fun c _ => mask_apply x2 B c

/-- The reference's result is the common last steps applied to its total and count. -/
theorem result_eq (x0 : (⟨S80x1024, .f32⟩ : BufTy).Contents (Elt Ideal)) (x1 : (⟨S2048x80x1024, .f32⟩ : BufTy).Contents (Elt Ideal))
    (x2 : (⟨S2048x80, .i32⟩ : BufTy).Contents (Elt Ideal)) :
    val_main_v14 (F := Ideal) x0 x1 x2
      = lossOf (F := Ideal) (fun _ => Ideal.ofBits .f32 0x00000000#32 + ∑ B : Fin 2048, rowTot x0 x1 x2 B)
          (fun _ => Ideal.ofBits .f32 0x00000000#32 + ∑ B : Fin 2048, rowCnt x2 B) := by
  rw [← total_eq, ← count_eq]
  rfl

end Cert.ReferenceIdeal.RefVal

end
-- ==== Proof.lean ====
/-
  Masked squared distance to class prototypes: the Pallas kernel against its jnp reference, over the extended reals.

  Both programs compute, for prototypes P[c, d], features X[B, c, d] and labels L[B, c],
      total = Σ_B Σ_c (Σ_d (X[B, c, d] − P[c, d])²) · [L[B, c] = 1],   count = Σ_B Σ_c [L[B, c] = 1],
  and return total / max(count, 1) where count > 0, else 0.

  The reference sums over the whole batch at once. The kernel walks the batch in 128 tiles of 16 samples, keeping a
  running total and a running count per half of the batch in two resident blocks (zeroed at the first tile of a half,
  written back after its last), and the host adds the two halves. The two totals, and the two counts, are the same
  2048·80 terms added in another grouping, so they are equal by commutativity and associativity of + on the extended
  reals alone; no finiteness of the inputs is used. The comparison bit is converted through a widening and a signed
  conversion in the kernel and directly (unsigned) in the reference: both give 0 or 1. The last steps (compare with
  zero, maximum with one, divide, select) are the same operations on both sides.

  Modules: Spec (the sums, over plain indices), KPieces (what one run of the body leaves in the two blocks), KPay (the
  body's two stores at an entry), KAcc (the running sums, by induction on the grid point), KFinal (the two result
  arrays), KTail (the host's last steps; the kernel's run read as a value), RefSide (the reference read as the same
  sums); RefRun and RefRead are the reference's run and its one-operation-at-a-time reading.
-/
import proofs.«147270_j57853209477371_1_alg».proof.Defs
import proofs.«147270_j57853209477371_1_alg».proof.Proof.Gen.Kernel
import proofs.«147270_j57853209477371_1_alg».proof.Proof.Gen.Kernel.Skeleton
import proofs.«147270_j57853209477371_1_alg».proof.Proof.Gen.Kernel.Launch
import proofs.«147270_j57853209477371_1_alg».proof.Proof.Gen.Kernel.Points
import proofs.«147270_j57853209477371_1_alg».proof.Proof.Gen.Kernel.Frame
import proofs.«147270_j57853209477371_1_alg».proof.Proof.Gen.KernelIdeal
import proofs.«147270_j57853209477371_1_alg».proof.Proof.Gen.KernelIdeal.Skeleton
import proofs.«147270_j57853209477371_1_alg».proof.Proof.Gen.KernelIdeal.Launch
import proofs.«147270_j57853209477371_1_alg».proof.Proof.Gen.KernelIdeal.Points
import proofs.«147270_j57853209477371_1_alg».proof.Proof.Gen.KernelIdeal.Frame
import proofs.«147270_j57853209477371_1_alg».proof.Proof.Gen.ReferenceIdeal
import proofs.«147270_j57853209477371_1_alg».proof.Proof.Gen.Pre_finite_inputs
import proofs.«147270_j57853209477371_1_alg».proof.Proof.RefRun
import proofs.«147270_j57853209477371_1_alg».proof.Proof.RefRead
import proofs.«147270_j57853209477371_1_alg».proof.Proof.Spec
import proofs.«147270_j57853209477371_1_alg».proof.Proof.KTail
import proofs.«147270_j57853209477371_1_alg».proof.Proof.RefSide
import Idealize.ShloMosaic.Adequacy
import Idealize.ShloMosaic.Init

noncomputable section

namespace Cert.Proof

open Idealize.ShloMosaic Idealize.SL.Sem

/-- The reference runs and leaves its arguments unchanged: its run, with the result dropped. -/
theorem frame_ref : Cert.frame_ReferenceIdeal := fun m ρ _ =>
  (θ_run Cert.ReferenceIdeal.defs _ _).mono (fun _ h c => (h c).2) (Cert.ReferenceIdeal.ValueP.run (F := Ideal) m ρ)

/-- From memories that agree on the three arguments, both idealized programs end with the common last steps applied
    to zero plus the batch's total and zero plus the batch's count. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v14_eq, Cert.ReferenceIdeal.RefVal.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
